-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S4096x2048 : Shape := ⟨2, ![4096, 2048]⟩
abbrev S4096 : Shape := ⟨1, ![4096]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S8192x2048 .f32) (main_arg1 : FVec F S4096x2048 .f32) (main_arg2 : FVec F S4096 .f32) (main_arg3 : FVec F S4096 .f32) (main_arg4 : FVec F S4096 .f32) (main_arg5 : FVec F S4096 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S8192x2048 : Shape := ⟨2, ![8192, 2048]⟩
abbrev S4096x2048 : Shape := ⟨2, ![4096, 2048]⟩
abbrev S4096 : Shape := ⟨1, ![4096]⟩
abbrev S1x4096 : Shape := ⟨2, ![1, 4096]⟩
abbrev S8192x4096 : Shape := ⟨2, ![8192, 4096]⟩
abbrev S256x2048 : Shape := ⟨2, ![256, 2048]⟩
abbrev S256x4096 : Shape := ⟨2, ![256, 4096]⟩
abbrev S256x32x128 : Shape := ⟨3, ![256, 32, 128]⟩
abbrev S256x32 : Shape := ⟨2, ![256, 32]⟩
abbrev S256x32x1 : Shape := ⟨3, ![256, 32, 1]⟩

abbrev nBuf : Space → Nat
  | .hbm => 13
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S4096x2048, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S8192x2048, .bf16⟩
  | .hbm, ⟨7, _⟩ => ⟨S4096x2048, .bf16⟩
  | .hbm, ⟨8, _⟩ => ⟨S1x4096, .f32⟩
  | .hbm, ⟨9, _⟩ => ⟨S1x4096, .f32⟩
  | .hbm, ⟨10, _⟩ => ⟨S1x4096, .f32⟩
  | .hbm, ⟨11, _⟩ => ⟨S1x4096, .f32⟩
  | .hbm, ⟨12, _⟩ => ⟨S8192x4096, .f32⟩
  | .local _ .vmem, ⟨0, _⟩ => ⟨S256x2048, .bf16⟩
  | .local _ .vmem, ⟨1, _⟩ => ⟨S256x2048, .bf16⟩
  | .local _ .vmem, ⟨2, _⟩ => ⟨S4096x2048, .bf16⟩
  | .local _ .vmem, ⟨3, _⟩ => ⟨S1x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S256x4096, .f32⟩
  | .local _ .vmem, ⟨8, _⟩ => ⟨S256x4096, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  shapeCasts_S4096_S1x4096 : S4096.ShapeCasts S1x4096
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  shapeCasts_S256x4096_S256x32x128 : S256x4096.ShapeCasts S256x32x128
  reduces_S256x32x128_S256x32 : S256x32x128.Reduces [2] S256x32
  shapeCasts_S256x32_S256x32x1 : S256x32.ShapeCasts S256x32x1
  broadcasts_S256x32x1_S256x32x128 : S256x32x1.Broadcasts S256x32x128
  shapeCasts_S256x32x128_S256x4096 : S256x32x128.ShapeCasts S256x4096
  inb_S256x4096_S256x4096_0_0 : ∀ a, (![0, 0] : Fin 2 → Nat) a + S256x4096.size a ≤ S256x4096.size a
  h_S256x4096 : 0 < S256x4096.numel
  dot_S256x2048_S4096x2048_S256x4096_1_1_0_0_n_n_wf : DotDims.WF S256x2048 S4096x2048 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .bf16 = 32 ∨ (Rect.block (s := S8192x2048) S256x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x2048.size a ≤ S4096x2048.size a
  hwx0_1 : ∀ i : grid0.Coords, EltTy.bits .bf16 = 32 ∨ (Rect.block (s := S4096x2048) S4096x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x4096.size a ≤ S8192x4096.size a
  hwx0_6 : ∀ i : grid0.Coords, EltTy.bits .f32 = 32 ∨ (Rect.block (s := S8192x4096) S256x4096.size (cc0_transform_6 i) (hinb0_6 i)).WholeWords (EltTy.packing .f32)

variable [Facts₀]

def dot_S256x2048_S4096x2048_S256x4096_1_1_0_0_n_n : DotDims S256x2048 S4096x2048 S256x4096 where
  lhsContracting := [1]
  rhsContracting := [1]
  lhsNonContracting := [0]
  rhsNonContracting := [0]
  lhsBatch := []
  rhsBatch := []
  wf := dot_S256x2048_S4096x2048_S256x4096_1_1_0_0_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S256x4096.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S4096x2048 : Shape := ⟨2, ![4096, 2048]⟩
abbrev S4096 : Shape := ⟨1, ![4096]⟩
abbrev S8192x4096 : Shape := ⟨2, ![8192, 4096]⟩
abbrev S1x4096 : Shape := ⟨2, ![1, 4096]⟩
abbrev S_ : Shape := ⟨0, ![]⟩
abbrev S8192x32x128 : Shape := ⟨3, ![8192, 32, 128]⟩
abbrev S8192x32 : Shape := ⟨2, ![8192, 32]⟩
abbrev S8192x32x1 : Shape := ⟨3, ![8192, 32, 1]⟩

abbrev nBuf : Space → Nat
  | .hbm => 53
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4096x2048, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S1x4096, .f32⟩
  | .hbm, ⟨20, _⟩ => ⟨S8192x4096, .f32⟩
  | .hbm, ⟨21, _⟩ => ⟨S8192x4096, .f32⟩
  | .hbm, ⟨22, _⟩ => ⟨S8192x32x128, .f32⟩
  | .hbm, ⟨23, _⟩ => ⟨S_, .f32⟩
  | .hbm, ⟨24, _⟩ => ⟨S8192x32, .f32⟩
  | .hbm, ⟨25, _⟩ => ⟨S8192x32x1, .f32⟩
  | .hbm, ⟨26, _⟩ => ⟨S_, .f32⟩
  | .hbm, ⟨27, _⟩ => ⟨S8192x32x1, .f32⟩
  | .hbm, ⟨28, _⟩ => ⟨S8192x32x1, .f32⟩
  | .hbm, ⟨29, _⟩ => ⟨S8192x32x128, .f32⟩
  | .hbm, ⟨30, _⟩ => ⟨S8192x32x128, .f32⟩
  | .hbm, ⟨31, _⟩ => ⟨S8192x32x128, .f32⟩
  | .hbm, ⟨32, _⟩ => ⟨S_, .f32⟩
  | .hbm, ⟨33, _⟩ => ⟨S8192x32, .f32⟩
  | .hbm, ⟨34, _⟩ => ⟨S8192x32x1, .f32⟩
  | .hbm, ⟨35, _⟩ => ⟨S_, .f32⟩
  | .hbm, ⟨36, _⟩ => ⟨S8192x32x1, .f32⟩
  | .hbm, ⟨37, _⟩ => ⟨S8192x32x1, .f32⟩
  | .hbm, ⟨38, _⟩ => ⟨S8192x32x128, .f32⟩
  | .hbm, ⟨39, _⟩ => ⟨S8192x32x128, .f32⟩
  | .hbm, ⟨40, _⟩ => ⟨S_, .f32⟩
  | .hbm, ⟨41, _⟩ => ⟨S8192x32x1, .f32⟩
  | .hbm, ⟨42, _⟩ => ⟨S8192x32x1, .f32⟩
  | .hbm, ⟨43, _⟩ => ⟨S8192x32x1, .f32⟩
  | .hbm, ⟨44, _⟩ => ⟨S8192x32x128, .f32⟩
  | .hbm, ⟨45, _⟩ => ⟨S8192x32x128, .f32⟩
  | .hbm, ⟨46, _⟩ => ⟨S8192x4096, .f32⟩
  | .hbm, ⟨47, _⟩ => ⟨S1x4096, .f32⟩
  | .hbm, ⟨48, _⟩ => ⟨S8192x4096, .f32⟩
  | .hbm, ⟨49, _⟩ => ⟨S8192x4096, .f32⟩
  | .hbm, ⟨50, _⟩ => ⟨S1x4096, .f32⟩
  | .hbm, ⟨51, _⟩ => ⟨S8192x4096, .f32⟩
  | .hbm, ⟨52, _⟩ => ⟨S8192x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  shapeCasts_S8192x4096_S8192x32x128 : S8192x4096.ShapeCasts S8192x32x128
  reducesTo_S8192x32x128_S8192x32_d2 : S8192x32x128.ReducesTo [2] S8192x32
  h_S_ : 0 < S_.numel
  bcast_S8192x32_S8192x32x1_0_1 : S8192x32.BroadcastsInDim S8192x32x1 (![0, 1] : Fin 2 → Fin S8192x32x1.rank)
  bcast_S_S8192x32x1 : S_.BroadcastsInDim S8192x32x1 (![] : Fin 0 → Fin S8192x32x1.rank)
  bcast_S8192x32x1_S8192x32x128_0_1_2 : S8192x32x1.BroadcastsInDim S8192x32x128 (![0, 1, 2] : Fin 3 → Fin S8192x32x128.rank)
  shapeCasts_S8192x32x128_S8192x4096 : S8192x32x128.ShapeCasts S8192x4096
  dot_S8192x2048_S4096x2048_S8192x4096_1_1_0_0_n_n_wf : DotDims.WF S8192x2048 S4096x2048 S8192x4096 [1] [1] [0] [0] [] []

variable [Facts₀]

def dot_S8192x2048_S4096x2048_S8192x4096_1_1_0_0_n_n : DotDims S8192x2048 S4096x2048 S8192x4096 where
  lhsContracting := [1]
  rhsContracting := [1]
  lhsNonContracting := [0]
  rhsNonContracting := [0]
  lhsBatch := []
  rhsBatch := []
  wf := dot_S8192x2048_S4096x2048_S8192x4096_1_1_0_0_n_n_wf

class Facts : Prop extends Facts₀ where

variable [Facts]
-- ==== Proof.Spec.lean ====
/-
  The function both programs compute, one row at a time, on the extended reals.

  A row `xr` of the activations (2048 entries) is multiplied against every one of the 4096 weight rows, the linear
  bias is added, the result `z` is passed through Swish, `z · σ(z)` with `σ(z) = 1 / (1 + e^(-z))`, and a second bias
  is added: the row `act` of 4096 channels.  The channels are then normalised in 32 groups of 128 consecutive
  channels: from every channel its group's mean is subtracted, the deviation is scaled by the reciprocal square root
  of the group's mean squared deviation plus a small constant, and a per-channel scale and shift are applied.

  Channel `n` sits in group `n / 128` at lane `n % 128`; `chan g l = 128 g + l` is the inverse.  The divisor 128 and
  the small constant are kept as the binary words the two programs share: neither is ever evaluated.
-/
import Idealize.ShloMosaic.Lib.ValueIdx
import Idealize.ShloMosaic.PureOps.Ideal.Laws

noncomputable section

namespace Cert.SwishGroupNorm

open Idealize.ShloMosaic

/-- The group size as both programs write it: the word of the float 128. -/
abbrev groupSize : EReal := Ideal.ofBits .f32 0x43000000#32
/-- The constant added to the variance: the word both programs share. -/
abbrev varEps : EReal := Ideal.ofBits .f32 0x3727C5AC#32

/-- Channel number of lane `l` of group `g`. -/
def chan (g : Fin 32) (l : Fin 128) : Fin 4096 := ⟨g.val * 128 + l.val, by have := g.isLt; have := l.isLt; omega⟩
/-- The group a channel belongs to. -/
def grp (n : Fin 4096) : Fin 32 := ⟨n.val / 128, by have := n.isLt; omega⟩
/-- A channel's place inside its group. -/
def lane (n : Fin 4096) : Fin 128 := ⟨n.val % 128, by omega⟩

theorem chan_val (g : Fin 32) (l : Fin 128) : (chan g l).val = g.val * 128 + l.val := rfl
theorem grp_val (n : Fin 4096) : (grp n).val = n.val / 128 := rfl
theorem lane_val (n : Fin 4096) : (lane n).val = n.val % 128 := rfl

theorem chan_grp_lane (n : Fin 4096) : chan (grp n) (lane n) = n :=
  Fin.ext (by rw [chan_val, grp_val, lane_val]; omega)

/-- The linear layer, Swish and the second bias, for one row at channel `n`. -/
def act (xr : Fin 2048 → EReal) (w : Fin 4096 → Fin 2048 → EReal) (bl be : Fin 4096 → EReal) (n : Fin 4096) : EReal :=
  ((∑ k : Fin 2048, xr k * w n k) + bl n) * Ideal.logistic ((∑ k : Fin 2048, xr k * w n k) + bl n) + be n

/-- A group's mean over its 128 lanes. -/
def gmean (y : Fin 4096 → EReal) (g : Fin 32) : EReal :=
  Ideal.div (∑ l : Fin 128, y (chan g l)) groupSize

/-- A channel's deviation from its group's mean. -/
def gdev (y : Fin 4096 → EReal) (g : Fin 32) (l : Fin 128) : EReal := y (chan g l) - gmean y g

/-- A group's mean squared deviation. -/
def gvar (y : Fin 4096 → EReal) (g : Fin 32) : EReal :=
  Ideal.div (∑ l : Fin 128, gdev y g l * gdev y g l) groupSize

/-- The deviation scaled by the reciprocal square root of the variance plus the constant. -/
def gscaled (y : Fin 4096 → EReal) (g : Fin 32) (l : Fin 128) : EReal :=
  gdev y g l * Ideal.rsqrt (gvar y g + varEps)

/-- The normalised row with the per-channel scale and shift, at channel `n`. -/
def normed (y gw gb : Fin 4096 → EReal) (n : Fin 4096) : EReal :=
  gscaled y (grp n) (lane n) * gw n + gb n

/-- One output row as a function of the activation row and the five parameter arrays. -/
def rowOut (xr : Fin 2048 → EReal) (w : Fin 4096 → Fin 2048 → EReal) (bl be gw gb : Fin 4096 → EReal) (n : Fin 4096) : EReal :=
  normed (act xr w bl be) gw gb n

/-- The whole result as a function of the six argument arrays: row `i 0` of the result is `rowOut` of row `i 0` of
    the activations, read at channel `i 1`. -/
def outArray (a0 : (⟨2, ![8192, 2048]⟩ : Shape).Idx → EReal) (a1 : (⟨2, ![4096, 2048]⟩ : Shape).Idx → EReal)
    (a2 a3 a4 a5 : (⟨1, ![4096]⟩ : Shape).Idx → EReal) : (⟨2, ![8192, 4096]⟩ : Shape).Idx → EReal :=
  fun i => rowOut (fun k => a0 (ValueIdx.ix2 (i 0) k)) (fun n k => a1 (ValueIdx.ix2 n k)) (fun n => a2 (ValueIdx.ix1 n))
    (fun n => a3 (ValueIdx.ix1 n)) (fun n => a4 (ValueIdx.ix1 n)) (fun n => a5 (ValueIdx.ix1 n)) (i 1)

end Cert.SwishGroupNorm

end
-- ==== Proof.RefRow.lean ====
/-
  The reference's result, entry by entry, is the row function `rowOut` of the argument arrays.

  The reference is a chain of whole-array operations: a product contracted over the 2048 inputs, two broadcast biases
  with Swish written out as `z · (1 / (1 + e^(-z)))` between them, a reshape of the 4096 channels into 32 groups of
  128 lanes, two sums over the lanes (the mean, then the mean squared deviation, each with a leading zero and a
  division by the group size), the reciprocal square root, the reshape back, and the scale and shift.  Each stage is read
  at an index from the stage before; a reshape only renames the index, row `r`, group `g`, lane `l` being row `r`,
  channel `128 g + l`.
-/
import proofs.«137462_j1580547967783_1_alg».proof.Proof.Gen.ReferenceIdeal.Read
import proofs.«137462_j1580547967783_1_alg».proof.Proof.Spec

noncomputable section

namespace Cert.ReferenceIdeal.RowValue

open Cert.ReferenceIdeal Cert.ReferenceIdeal.Read Cert.SwishGroupNorm Idealize.ShloMosaic Idealize.ShloMosaic.ValueIdx

variable (x0 : (⟨S8192x2048, .f32⟩ : BufTy).Contents (Elt Ideal)) (x1 : (⟨S4096x2048, .f32⟩ : BufTy).Contents (Elt Ideal))
  (x2 x3 x4 x5 : (⟨S4096, .f32⟩ : BufTy).Contents (Elt Ideal))

/-- Row `r` of the activations. -/
abbrev xrow (r : Fin 8192) : Fin 2048 → EReal := fun k => x0 (ix2 r k)
/-- The weights as rows. -/
abbrev wmat : Fin 4096 → Fin 2048 → EReal := fun n k => x1 (ix2 n k)
/-- A per-channel parameter. -/
abbrev pvec (x : (⟨S4096, .f32⟩ : BufTy).Contents (Elt Ideal)) : Fin 4096 → EReal := fun n => x (ix1 n)

/-- The float word of 1 is the extended real 1. -/
theorem one_word : Ideal.ofBits .f32 0x3F800000#32 = 1 := IdealRules.sign_bit.ideal_onePat .f32

/-- The pre-normalisation activations at row `r`, channel `n`. -/
theorem act_at (r : Fin 8192) (n : Fin 4096) :
    val_main_v13 (F := Ideal) x0 x1 x2 x3 (ix2 r n) = act (xrow x0 r) (wmat x1) (pvec x2) (pvec x3) n := by
  rw [val_main_v13_apply, val_main_v10_apply, val_main_v12_apply, val_main_v11_apply, val_main_v9_apply, val_main_v8_apply,
    val_main_cst_0_apply, val_main_v7_apply, val_main_v6_apply, val_main_cst_apply, val_main_v5_apply, val_main_v4_apply,
    val_main_v3_apply, val_main_v2_apply, val_main_v1_apply, val_main_v0_apply]
  have hl : ∀ k : Fin 2048, lidx_main_v0 (ix2 r n) k = ix2 r k := fun k =>
    funext fun a => match a with | ⟨0, _⟩ => rfl | ⟨1, _⟩ => rfl
  have hr : ∀ k : Fin 2048, ridx_main_v0 (ix2 r n) k = ix2 n k := fun k =>
    funext fun a => match a with | ⟨0, _⟩ => rfl | ⟨1, _⟩ => rfl
  have h2 : idx_main_v1 (idx_main_v2 (ix2 r n)) = ix1 n := funext fun a => match a with | ⟨0, _⟩ => rfl
  have h3 : idx_main_v11 (idx_main_v12 (ix2 r n)) = ix1 n := funext fun a => match a with | ⟨0, _⟩ => rfl
  simp only [hl, hr, h2, h3]
  simp only [act, Ideal.logistic, Ideal.addf_def, Ideal.mulf_def, Ideal.hostDivf_def, Ideal.ofBits_def, one_word,
    Ideal.hostUnary_exp_def, Ideal.hostNegf_def, Ideal.negf_def]

/-- After the reshape into groups: row `r`, group `g`, lane `l` is row `r`, channel `128 g + l`. -/
theorem grouped_at (r : Fin 8192) (g : Fin 32) (l : Fin 128) :
    val_main_v14 (F := Ideal) x0 x1 x2 x3 (ix3 r g l) = act (xrow x0 r) (wmat x1) (pvec x2) (pvec x3) (chan g l) := by
  rw [val_main_v14_apply]
  have hi : idx_main_v14 (ix3 r g l) = ix2 r (chan g l) := funext fun a => match a with
    | ⟨0, _⟩ => Fin.ext (by
        show ((r.val * 32 + g.val) * 128 + l.val) / 4096 = r.val
        have := g.isLt; have := l.isLt; omega)
    | ⟨1, _⟩ => Fin.ext (by
        show ((r.val * 32 + g.val) * 128 + l.val) % 4096 = g.val * 128 + l.val
        have := g.isLt; have := l.isLt; omega)
  rw [hi, act_at]

/-- The group means. -/
theorem mean_at (r : Fin 8192) (g : Fin 32) :
    val_main_v18 (F := Ideal) x0 x1 x2 x3 (ix3 r g (0 : Fin 1)) = gmean (act (xrow x0 r) (wmat x1) (pvec x2) (pvec x3)) g := by
  rw [val_main_v18_apply, val_main_v16_apply, val_main_v15_apply, val_main_v17_apply, val_main_cst_2_apply, val_main_cst_1_apply]
  have hk : ∀ k : Fin 128, idx_main_v15 (idx_main_v16 (ix3 r g (0 : Fin 1))) k = ix3 r g k := fun k =>
    funext fun a => match a with | ⟨0, _⟩ => rfl | ⟨1, _⟩ => rfl | ⟨2, _⟩ => rfl
  simp only [hk, grouped_at]
  simp only [gmean, Ideal.hostDivf_def, Ideal.ofBits_def, Ideal.ofBits_zero_f32, zero_add]

/-- The deviations from the group means (the first of the reference's two copies). -/
theorem dev_at (r : Fin 8192) (g : Fin 32) (l : Fin 128) :
    val_main_v20 (F := Ideal) x0 x1 x2 x3 (ix3 r g l) = gdev (act (xrow x0 r) (wmat x1) (pvec x2) (pvec x3)) g l := by
  rw [val_main_v20_apply, val_main_v19_apply]
  have hi : idx_main_v19 (ix3 r g l) = ix3 r g (0 : Fin 1) :=
    funext fun a => match a with | ⟨0, _⟩ => rfl | ⟨1, _⟩ => rfl | ⟨2, _⟩ => rfl
  rw [hi, mean_at, grouped_at]
  rfl

/-- The deviations again (the copy the reference recomputes for the normalised value). -/
theorem dev_at' (r : Fin 8192) (g : Fin 32) (l : Fin 128) :
    val_main_v27 (F := Ideal) x0 x1 x2 x3 (ix3 r g l) = gdev (act (xrow x0 r) (wmat x1) (pvec x2) (pvec x3)) g l := by
  rw [val_main_v27_apply, val_main_v26_apply]
  have hi : idx_main_v26 (ix3 r g l) = ix3 r g (0 : Fin 1) :=
    funext fun a => match a with | ⟨0, _⟩ => rfl | ⟨1, _⟩ => rfl | ⟨2, _⟩ => rfl
  rw [hi, mean_at, grouped_at]
  rfl

/-- The group variances. -/
theorem var_at (r : Fin 8192) (g : Fin 32) :
    val_main_v25 (F := Ideal) x0 x1 x2 x3 (ix3 r g (0 : Fin 1)) = gvar (act (xrow x0 r) (wmat x1) (pvec x2) (pvec x3)) g := by
  rw [val_main_v25_apply, val_main_v23_apply, val_main_v22_apply, val_main_v24_apply, val_main_cst_4_apply, val_main_cst_3_apply]
  have hk : ∀ k : Fin 128, idx_main_v22 (idx_main_v23 (ix3 r g (0 : Fin 1))) k = ix3 r g k := fun k =>
    funext fun a => match a with | ⟨0, _⟩ => rfl | ⟨1, _⟩ => rfl | ⟨2, _⟩ => rfl
  simp only [hk, val_main_v21_apply, dev_at]
  simp only [gvar, Ideal.hostDivf_def, Ideal.mulf_def, Ideal.ofBits_def, Ideal.ofBits_zero_f32, zero_add]

/-- The deviations scaled by the reciprocal square root. -/
theorem scaled_at (r : Fin 8192) (g : Fin 32) (l : Fin 128) :
    val_main_v32 (F := Ideal) x0 x1 x2 x3 (ix3 r g l) = gscaled (act (xrow x0 r) (wmat x1) (pvec x2) (pvec x3)) g l := by
  rw [val_main_v32_apply, val_main_v31_apply, val_main_v30_apply, val_main_v29_apply, val_main_v28_apply, val_main_cst_5_apply]
  have hi : idx_main_v31 (ix3 r g l) = ix3 r g (0 : Fin 1) :=
    funext fun a => match a with | ⟨0, _⟩ => rfl | ⟨1, _⟩ => rfl | ⟨2, _⟩ => rfl
  rw [hi, dev_at', var_at]
  rfl

/-- The reference's result at row `r`, channel `n`. -/
theorem out_at (r : Fin 8192) (n : Fin 4096) :
    val_main_v39 (F := Ideal) x0 x1 x2 x3 x4 x5 (ix2 r n)
      = rowOut (xrow x0 r) (wmat x1) (pvec x2) (pvec x3) (pvec x4) (pvec x5) n := by
  rw [val_main_v39_apply, val_main_v36_apply, val_main_v38_apply, val_main_v37_apply, val_main_v35_apply, val_main_v34_apply,
    val_main_v33_apply]
  have hi : idx_main_v33 (ix2 r n) = ix3 r (grp n) (lane n) := funext fun a => match a with
    | ⟨0, _⟩ => Fin.ext (by
        show (r.val * 4096 + n.val) / 4096 = r.val
        have := n.isLt; omega)
    | ⟨1, _⟩ => Fin.ext (by
        show (r.val * 4096 + n.val) / 128 % 32 = n.val / 128
        have := n.isLt; omega)
    | ⟨2, _⟩ => Fin.ext (by
        show (r.val * 4096 + n.val) % 128 = n.val % 128
        omega)
  have h4 : idx_main_v34 (idx_main_v35 (ix2 r n)) = ix1 n := funext fun a => match a with | ⟨0, _⟩ => rfl
  have h5 : idx_main_v37 (idx_main_v38 (ix2 r n)) = ix1 n := funext fun a => match a with | ⟨0, _⟩ => rfl
  rw [hi, h4, h5, scaled_at]
  rfl

/-- The reference's whole result: every row is `rowOut` of the same row of the activations. -/
theorem out_eq : val_main_v39 (F := Ideal) x0 x1 x2 x3 x4 x5 = outArray x0 x1 x2 x3 x4 x5 := by
  funext i
  rw [eq_ix2 i]
  exact out_at x0 x1 x2 x3 x4 x5 (i 0) (i 1)

end Cert.ReferenceIdeal.RowValue

end
-- ==== Proof.KernRow.lean ====
/-
  The kernel body's stored value, entry by entry, is the row function `rowOut` of the blocks it loads.

  The body works on a block of 256 rows.  Its product contracts the 2048 inputs of a row against every weight row
  (into a zero accumulator, so it is the plain sum of products); the two biases and Swish are lane-wise; the 4096
  channels are reshaped into 32 groups of 128 lanes, where the two lane sums give the mean and the mean squared
  deviation; and the result is reshaped back, scaled and shifted.  A reshape renames an index without moving a value:
  row `p`, group `g`, lane `l` is row `p`, channel `128 g + l`; a broadcast of a per-group or per-channel value reads
  the one entry it repeats.  Entry `(p, q)` therefore depends only on row `p` of the activation block.
-/
import proofs.«137462_j1580547967783_1_alg».proof.Proof.Gen.KernelIdeal.Skeleton
import proofs.«137462_j1580547967783_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.RowValue

open Cert.KernelIdeal Cert.KernelIdeal.Gen Cert.SwishGroupNorm Idealize.ShloMosaic Idealize.ShloMosaic.ValueIdx

/-! ## The layout operations of the body, read at an index -/

section Layout
variable {α : Type}

/-- Channels into groups: entry (p, g, l) of the reshaped block is entry (p, 128 g + l). -/
theorem split_at (Y : S256x4096.Idx → α) (h : S256x4096.ShapeCasts S256x32x128) (p : Fin 256) (g : Fin 32) (l : Fin 128) :
    shapeCast S256x32x128 Y h (ix3 p g l) = Y (ix2 p (chan g l)) :=
  shapeCast_apply Y h (ix3 p g l) (ix2 p (chan g l)) (by
    rw [Shape.rowMajor_val_two, Shape.rowMajor_val_three]
    show p.val * 4096 + (g.val * 128 + l.val) = (p.val * 32 + g.val) * 128 + l.val
    omega)

/-- Groups back into channels: entry (p, q) is entry (p, q / 128, q % 128). -/
theorem merge_at (Z : S256x32x128.Idx → α) (h : S256x32x128.ShapeCasts S256x4096) (p : Fin 256) (q : Fin 4096) :
    shapeCast S256x4096 Z h (ix2 p q) = Z (ix3 p (grp q) (lane q)) :=
  shapeCast_apply Z h (ix2 p q) (ix3 p (grp q) (lane q)) (by
    rw [Shape.rowMajor_val_two, Shape.rowMajor_val_three]
    show (p.val * 32 + q.val / 128) * 128 + q.val % 128 = p.val * 4096 + q.val
    omega)

/-- A per-group value given a unit lane axis. -/
theorem unit_lane_at (W : S256x32.Idx → α) (h : S256x32.ShapeCasts S256x32x1) (p : Fin 256) (g : Fin 32) :
    shapeCast S256x32x1 W h (ix3 p g (0 : Fin 1)) = W (ix2 p g) :=
  shapeCast_apply W h (ix3 p g (0 : Fin 1)) (ix2 p g) (by
    rw [Shape.rowMajor_val_two, Shape.rowMajor_val_three]
    show p.val * 32 + g.val = (p.val * 32 + g.val) * 1 + 0
    omega)

/-- A per-group value repeated along the lanes. -/
theorem along_lanes_at (W : S256x32x1.Idx → α) (h : S256x32x1.Broadcasts S256x32x128) (p : Fin 256) (g : Fin 32) (l : Fin 128) :
    broadcastTo S256x32x128 W h (ix3 p g l) = W (ix3 p g (0 : Fin 1)) :=
  broadcastTo_apply W h (ix3 p g l) (ix3 p g (0 : Fin 1)) fun a => match a with
    | ⟨0, _⟩ => rfl
    | ⟨1, _⟩ => rfl
    | ⟨2, _⟩ => rfl

/-- A per-channel row, loaded as a [1, 4096] block, repeated along the rows. -/
theorem along_rows_at (x : S1x4096.Idx → α) (h₁ : S1x4096.ShapeCasts S1x4096) (h₂ : S1x4096.Broadcasts S256x4096) (p : Fin 256) (q : Fin 4096) :
    broadcastTo S256x4096 (shapeCast S1x4096 x h₁) h₂ (ix2 p q) = x (ix2 (0 : Fin 1) q) := by
  rw [shapeCast_self]
  exact broadcastTo_1b_ab_apply x h₂ p q

end Layout

/-- A lane sum: entry (p, g) is the sum over the 128 lanes of group g in row p. -/
theorem lane_sum_at (Z : FVec Ideal S256x32x128 .f32) (h : S256x32x128.Reduces [2] S256x32) (hφ : FKind.Formats .f32)
    (hacc : (0x00000000#32 : BitVec 32) = 0x00000000#32) (p : Fin 256) (g : Fin 32) :
    multiReduction .add [2] S256x32 Z 0x00000000#32 h hφ hacc (ix2 p g) = ∑ l : Fin 128, Z (ix3 p g l) := by
  refine (Ideal.multiReduction_add_single Z 0x00000000#32 h hφ hacc (ix2 p g)).trans ?_
  refine Finset.sum_congr rfl fun l _ => congrArg Z ?_
  exact funext fun a => Fin.ext (match a with | ⟨0, _⟩ => rfl | ⟨1, _⟩ => rfl | ⟨2, _⟩ => rfl)

/-! ## The product -/

theorem lhs_row (i : S256x4096.Idx) (q : dot_S256x2048_S4096x2048_S256x4096_1_1_0_0_n_n.contr.Idx) :
    (dot_S256x2048_S4096x2048_S256x4096_1_1_0_0_n_n.lhsIdx i q 0).val = (i 0).val := by
  unfold DotDims.lhsIdx
  rw [dif_neg (show ¬(0 : Fin S256x2048.rank) ∈ dot_S256x2048_S4096x2048_S256x4096_1_1_0_0_n_n.lhsBatch by decide),
    dif_pos (show (0 : Fin S256x2048.rank) ∈ dot_S256x2048_S4096x2048_S256x4096_1_1_0_0_n_n.lhsNonContracting by decide)]
  rfl
theorem lhs_contr (i : S256x4096.Idx) (q : dot_S256x2048_S4096x2048_S256x4096_1_1_0_0_n_n.contr.Idx) :
    (dot_S256x2048_S4096x2048_S256x4096_1_1_0_0_n_n.lhsIdx i q 1).val = (q ⟨0, by decide⟩).val :=
  dot_S256x2048_S4096x2048_S256x4096_1_1_0_0_n_n.lhsIdx_val_of_single rfl i q
theorem rhs_row (i : S256x4096.Idx) (q : dot_S256x2048_S4096x2048_S256x4096_1_1_0_0_n_n.contr.Idx) :
    (dot_S256x2048_S4096x2048_S256x4096_1_1_0_0_n_n.rhsIdx i q 0).val = (i 1).val := by
  unfold DotDims.rhsIdx
  rw [dif_neg (show ¬(0 : Fin S4096x2048.rank) ∈ dot_S256x2048_S4096x2048_S256x4096_1_1_0_0_n_n.rhsBatch by decide),
    dif_pos (show (0 : Fin S4096x2048.rank) ∈ dot_S256x2048_S4096x2048_S256x4096_1_1_0_0_n_n.rhsNonContracting by decide)]
  rfl
theorem rhs_contr (i : S256x4096.Idx) (q : dot_S256x2048_S4096x2048_S256x4096_1_1_0_0_n_n.contr.Idx) :
    (dot_S256x2048_S4096x2048_S256x4096_1_1_0_0_n_n.rhsIdx i q 1).val = (q ⟨0, by decide⟩).val :=
  dot_S256x2048_S4096x2048_S256x4096_1_1_0_0_n_n.rhsIdx_val_of_single rfl i q

/-- The product into the zero accumulator: entry (p, n) is the sum over the 2048 inputs of the products of row `p` of
    the activation block with weight row `n`. -/
theorem product_at (A : FVec Ideal S256x2048 .bf16) (B : FVec Ideal S4096x2048 .bf16) (p : Fin 256) (n : Fin 4096) :
    matmul dot_S256x2048_S4096x2048_S256x4096_1_1_0_0_n_n none A B (constant S256x4096 .f32 0x00000000#32) (ix2 p n)
      = ∑ k : Fin 2048, A (ix2 p k) * B (ix2 n k) := by
  simp only [matmul]
  rw [Ideal.matmul_constant_zero_apply,
    ← Equiv.sum_comp (contrEquiv1 dot_S256x2048_S4096x2048_S256x4096_1_1_0_0_n_n 2048 rfl rfl).symm]
  refine Finset.sum_congr rfl fun k _ => ?_
  have hk := contrEquiv1_symm_val dot_S256x2048_S4096x2048_S256x4096_1_1_0_0_n_n 2048 rfl rfl k
  have el : dot_S256x2048_S4096x2048_S256x4096_1_1_0_0_n_n.lhsIdx (ix2 p n)
      ((contrEquiv1 dot_S256x2048_S4096x2048_S256x4096_1_1_0_0_n_n 2048 rfl rfl).symm k) = ix2 p k :=
    funext fun a => Fin.ext (by
      match a with
      | ⟨0, _⟩ => exact lhs_row _ _
      | ⟨1, _⟩ => exact (lhs_contr _ _).trans hk)
  have er : dot_S256x2048_S4096x2048_S256x4096_1_1_0_0_n_n.rhsIdx (ix2 p n)
      ((contrEquiv1 dot_S256x2048_S4096x2048_S256x4096_1_1_0_0_n_n 2048 rfl rfl).symm k) = ix2 n k :=
    funext fun a => Fin.ext (by
      match a with
      | ⟨0, _⟩ => exact rhs_row _ _
      | ⟨1, _⟩ => exact (rhs_contr _ _).trans hk)
  rw [el, er]

/-! ## The body's value in two steps: the activations, then their normalisation -/

/-- Row `p` of an activation block. -/
abbrev brow (x0 : Vec Ideal S256x2048 .bf16) (p : Fin 256) : Fin 2048 → EReal := fun k => x0 (ix2 p k)
/-- The weight block as rows. -/
abbrev bmat (x1 : Vec Ideal S4096x2048 .bf16) : Fin 4096 → Fin 2048 → EReal := fun n k => x1 (ix2 n k)
/-- A per-channel block of one row. -/
abbrev bvec (x : Vec Ideal S1x4096 .f32) : Fin 4096 → EReal := fun n => x (ix2 (0 : Fin 1) n)

/-- The linear layer with its bias. -/
def linBlock (x0 : Vec Ideal S256x2048 .bf16) (x1 : Vec Ideal S4096x2048 .bf16) (x2 : Vec Ideal S1x4096 .f32) : FVec Ideal S256x4096 .f32 :=
  addf (matmul (φ₁ := .bf16) (φ₂ := .bf16) dot_S256x2048_S4096x2048_S256x4096_1_1_0_0_n_n none (shapeCast S256x2048 x0 shapeCasts_S256x2048_S256x2048)
      (shapeCast S4096x2048 x1 shapeCasts_S4096x2048_S4096x2048) (constant S256x4096 .f32 0x00000000#32))
    (broadcastTo S256x4096 (shapeCast S1x4096 x2 shapeCasts_S1x4096_S1x4096) broadcasts_S1x4096_S256x4096)

/-- Swish of the linear layer plus the second bias: the block the normalisation works on. -/
def actBlock (x0 : Vec Ideal S256x2048 .bf16) (x1 : Vec Ideal S4096x2048 .bf16) (x2 x3 : Vec Ideal S1x4096 .f32) : FVec Ideal S256x4096 .f32 :=
  addf (mulf (linBlock x0 x1 x2) (logistic (linBlock x0 x1 x2)))
    (broadcastTo S256x4096 (shapeCast S1x4096 x3 shapeCasts_S1x4096_S1x4096) broadcasts_S1x4096_S256x4096)

theorem linBlock_at (x0 : Vec Ideal S256x2048 .bf16) (x1 : Vec Ideal S4096x2048 .bf16) (x2 : Vec Ideal S1x4096 .f32) (p : Fin 256) (n : Fin 4096) :
    linBlock x0 x1 x2 (ix2 p n) = (∑ k : Fin 2048, brow x0 p k * bmat x1 n k) + bvec x2 n := by
  unfold linBlock
  rw [addf_apply, along_rows_at, shapeCast_self, shapeCast_self, product_at]

theorem actBlock_at (x0 : Vec Ideal S256x2048 .bf16) (x1 : Vec Ideal S4096x2048 .bf16) (x2 x3 : Vec Ideal S1x4096 .f32) (p : Fin 256) (n : Fin 4096) :
    actBlock x0 x1 x2 x3 (ix2 p n) = act (brow x0 p) (bmat x1) (bvec x2) (bvec x3) n := by
  unfold actBlock
  rw [addf_apply, mulf_apply, along_rows_at]
  show linBlock x0 x1 x2 (ix2 p n) * Ideal.logistic (linBlock x0 x1 x2 (ix2 p n)) + _ = _
  rw [linBlock_at]
  rfl

/-- Row `p` of a block of channels. -/
abbrev yrow (Y : FVec Ideal S256x4096 .f32) (p : Fin 256) : Fin 4096 → EReal := fun n => Y (ix2 p n)

/-- The channels in groups. -/
def grouped (Y : FVec Ideal S256x4096 .f32) : FVec Ideal S256x32x128 .f32 :=
  shapeCast S256x32x128 Y shapeCasts_S256x4096_S256x32x128

/-- The group means, with a unit lane axis. -/
def meanBlock (Y : FVec Ideal S256x4096 .f32) : FVec Ideal S256x32x1 .f32 :=
  divf (shapeCast S256x32x1 (multiReduction .add [2] S256x32 (grouped Y) 0x00000000#32 reduces_S256x32x128_S256x32 (.inl rfl) rfl)
      shapeCasts_S256x32_S256x32x1)
    (broadcast S256x32x1 (Scalar.ofBits .f32 0x43000000#32))

/-- The deviations from the group means. -/
def devBlock (Y : FVec Ideal S256x4096 .f32) : FVec Ideal S256x32x128 .f32 :=
  subf (grouped Y) (broadcastTo S256x32x128 (meanBlock Y) broadcasts_S256x32x1_S256x32x128)

/-- The group variances, with a unit lane axis. -/
def varBlock (Y : FVec Ideal S256x4096 .f32) : FVec Ideal S256x32x1 .f32 :=
  divf (shapeCast S256x32x1 (multiReduction .add [2] S256x32 (mulf (devBlock Y) (devBlock Y)) 0x00000000#32 reduces_S256x32x128_S256x32 (.inl rfl) rfl)
      shapeCasts_S256x32_S256x32x1)
    (broadcast S256x32x1 (Scalar.ofBits .f32 0x43000000#32))

/-- The deviations scaled by the reciprocal square root of the variance plus the constant. -/
def scaledBlock (Y : FVec Ideal S256x4096 .f32) : FVec Ideal S256x32x128 .f32 :=
  mulf (devBlock Y)
    (broadcastTo S256x32x128 (rsqrt (addf (varBlock Y) (broadcast S256x32x1 (Scalar.ofBits .f32 0x3727C5AC#32))))
      broadcasts_S256x32x1_S256x32x128)

/-- The normalised block with the per-channel scale and shift. -/
def normBlock (Y : FVec Ideal S256x4096 .f32) (x4 x5 : Vec Ideal S1x4096 .f32) : FVec Ideal S256x4096 .f32 :=
  addf (mulf (shapeCast S256x4096 (scaledBlock Y) shapeCasts_S256x32x128_S256x4096)
      (broadcastTo S256x4096 (shapeCast S1x4096 x4 shapeCasts_S1x4096_S1x4096) broadcasts_S1x4096_S256x4096))
    (broadcastTo S256x4096 (shapeCast S1x4096 x5 shapeCasts_S1x4096_S1x4096) broadcasts_S1x4096_S256x4096)

/-- The body's stored value is the normalisation of the activations: the same operations in the same order. -/
theorem pay_eq (x0 : Vec Ideal S256x2048 .bf16) (x1 : Vec Ideal S4096x2048 .bf16) (x2 x3 x4 x5 : Vec Ideal S1x4096 .f32) :
    k0_pay1 (F := Ideal) x0 x1 x2 x3 x4 x5 = normBlock (actBlock x0 x1 x2 x3) x4 x5 := rfl

theorem grouped_at (Y : FVec Ideal S256x4096 .f32) (p : Fin 256) (g : Fin 32) (l : Fin 128) :
    grouped Y (ix3 p g l) = yrow Y p (chan g l) :=
  split_at Y _ p g l

theorem meanBlock_at (Y : FVec Ideal S256x4096 .f32) (p : Fin 256) (g : Fin 32) :
    meanBlock Y (ix3 p g (0 : Fin 1)) = gmean (yrow Y p) g := by
  unfold meanBlock
  rw [divf_apply, unit_lane_at, lane_sum_at, broadcast_apply]
  simp only [grouped_at]
  rfl

theorem devBlock_at (Y : FVec Ideal S256x4096 .f32) (p : Fin 256) (g : Fin 32) (l : Fin 128) :
    devBlock Y (ix3 p g l) = gdev (yrow Y p) g l := by
  unfold devBlock
  rw [subf_apply, along_lanes_at, meanBlock_at, grouped_at]
  rfl

theorem varBlock_at (Y : FVec Ideal S256x4096 .f32) (p : Fin 256) (g : Fin 32) :
    varBlock Y (ix3 p g (0 : Fin 1)) = gvar (yrow Y p) g := by
  unfold varBlock
  rw [divf_apply, unit_lane_at, lane_sum_at, broadcast_apply]
  simp only [mulf_apply, devBlock_at]
  rfl

theorem scaledBlock_at (Y : FVec Ideal S256x4096 .f32) (p : Fin 256) (g : Fin 32) (l : Fin 128) :
    scaledBlock Y (ix3 p g l) = gscaled (yrow Y p) g l := by
  unfold scaledBlock
  rw [mulf_apply, along_lanes_at, devBlock_at]
  show _ * Ideal.rsqrt (varBlock Y (ix3 p g (0 : Fin 1)) + _) = _
  rw [varBlock_at]
  rfl

theorem normBlock_at (Y : FVec Ideal S256x4096 .f32) (x4 x5 : Vec Ideal S1x4096 .f32) (p : Fin 256) (q : Fin 4096) :
    normBlock Y x4 x5 (ix2 p q) = normed (yrow Y p) (bvec x4) (bvec x5) q := by
  unfold normBlock
  rw [addf_apply, mulf_apply, merge_at, along_rows_at, along_rows_at, scaledBlock_at]
  rfl

/-- THE BODY AT AN ENTRY: entry (p, q) of what the body stores is `rowOut` of row `p` of the activation block and the
    five parameter blocks, at channel `q`. -/
theorem pay_at (x0 : Vec Ideal S256x2048 .bf16) (x1 : Vec Ideal S4096x2048 .bf16) (x2 x3 x4 x5 : Vec Ideal S1x4096 .f32)
    (p : Fin 256) (q : Fin 4096) :
    k0_pay1 (F := Ideal) x0 x1 x2 x3 x4 x5 (ix2 p q)
      = rowOut (brow x0 p) (bmat x1) (bvec x2) (bvec x3) (bvec x4) (bvec x5) q := by
  rw [pay_eq, normBlock_at]
  have hy : yrow (actBlock x0 x1 x2 x3) p = act (brow x0 p) (bmat x1) (bvec x2) (bvec x3) :=
    funext fun n => actBlock_at x0 x1 x2 x3 p n
  rw [hy]
  rfl

end Cert.KernelIdeal.RowValue

end
-- ==== Proof.KernArray.lean ====
/-
  From blocks to the array: after the run the result array is `outArray` of the six argument arrays.

  Grid point `t` (of 32) works on rows `256 t … 256 t + 255`: it loads that block of the activations (the host has only
  changed their float format, which on the extended reals changes nothing), the whole weight array, and the four
  per-channel arrays (reshaped by the host to one row of 4096), and writes back the same rows of the result.  By the
  entry-wise reading of the body, what point `t` writes is block `t` of `outArray`; the 32 blocks tile the 8192 rows,
  row `r` lying in block `r / 256`.
-/
import proofs.«137462_j1580547967783_1_alg».proof.Proof.Gen.KernelIdeal.Value
import proofs.«137462_j1580547967783_1_alg».proof.Proof.KernRow
import Idealize.ShloMosaic.Lib.Pipeline.Value
import Idealize.ShloMosaic.Lib.StableHlo.Run
import Idealize.ShloMosaic.Lib.ValueLayout
import Idealize.ShloMosaic.Lib.Tactic

noncomputable section

namespace Cert.KernelIdeal.ArrayValue

open Cert.KernelIdeal Cert.KernelIdeal.Gen Cert.KernelIdeal.Value Cert.KernelIdeal.RowValue Cert.SwishGroupNorm
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The arrays as the region finds them -/

/-- The activations after the host's change of float format are the activations. -/
theorem V_act (c : Dev nD) :
    (V m c main_v0 : S8192x2048.Idx → EReal) = (m ((c : Thread nD τ).loc main_arg0) : S8192x2048.Idx → EReal) := by
  dsimp only [Gen.V, Gen.hostOps0]
  after_results
  rfl

/-- The weights likewise. -/
theorem V_wts (c : Dev nD) :
    (V m c main_v1 : S4096x2048.Idx → EReal) = (m ((c : Thread nD τ).loc main_arg1) : S4096x2048.Idx → EReal) := by
  dsimp only [Gen.V, Gen.hostOps0]
  after_results
  rfl

/-- The linear bias as one row. -/
theorem V_bl (c : Dev nD) :
    (V m c main_v2 : S1x4096.Idx → EReal)
      = shapeCast S1x4096 (m ((c : Thread nD τ).loc main_arg2) : S4096.Idx → EReal) shapeCasts_S4096_S1x4096 := by
  dsimp only [Gen.V, Gen.hostOps0]
  after_results
  rfl

/-- The second bias as one row. -/
theorem V_be (c : Dev nD) :
    (V m c main_v3 : S1x4096.Idx → EReal)
      = shapeCast S1x4096 (m ((c : Thread nD τ).loc main_arg3) : S4096.Idx → EReal) shapeCasts_S4096_S1x4096 := by
  dsimp only [Gen.V, Gen.hostOps0]
  after_results
  rfl

/-- The scale as one row. -/
theorem V_gw (c : Dev nD) :
    (V m c main_v4 : S1x4096.Idx → EReal)
      = shapeCast S1x4096 (m ((c : Thread nD τ).loc main_arg4) : S4096.Idx → EReal) shapeCasts_S4096_S1x4096 := by
  dsimp only [Gen.V, Gen.hostOps0]
  after_results
  rfl

/-- The shift as one row. -/
theorem V_gb (c : Dev nD) :
    (V m c main_v5 : S1x4096.Idx → EReal)
      = shapeCast S1x4096 (m ((c : Thread nD τ).loc main_arg5) : S4096.Idx → EReal) shapeCasts_S4096_S1x4096 := by
  dsimp only [Gen.V, Gen.hostOps0]
  after_results
  rfl

/-! ## The blocks the body loads -/

/-- The printed index maps over the 32 points: the activations' and the result's blocks move down the rows with the
    point; every parameter window stays on its one block. -/
theorem idx_facts : ∀ t : Fin cfg0.N,
    win0_0.index t (0 : Fin 2) = t.val ∧ win0_0.index t (1 : Fin 2) = 0
    ∧ win0_6.index t (0 : Fin 2) = t.val ∧ win0_6.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Entry `x` of the activation block at point `t` is entry (256 t + x₀, x₁) of the activations. -/
theorem act_blk_at (c : Dev nD) (t : Fin cfg0.N) (x : S256x2048.Idx) (k : S8192x2048.Idx)
    (hk0 : (k 0).val = t.val * 256 + (x 0).val) (hk1 : (k 1).val = (x 1).val) :
    (iblk m c 0 t : Vec Ideal S256x2048 .bf16) x = (m ((c : Thread nD τ).loc main_arg0) : S8192x2048.Idx → EReal) k := by
  obtain ⟨e0, e1, -⟩ := idx_facts t
  unfold iblk
  rw [View.read_apply]
  show (V m c main_v0 : S8192x2048.Idx → EReal) _ = _
  rw [V_act]
  congr 1
  funext a
  apply Fin.ext
  match a with
  | ⟨0, _⟩ => show win0_0.index t 0 * 256 + 1 * (x 0).val = (k 0).val; rw [e0, hk0]; omega
  | ⟨1, _⟩ => show win0_0.index t 1 * 2048 + 1 * (x 1).val = (k 1).val; rw [e1, hk1]; omega

/-- The weight block at any point is the whole weight array. -/
theorem wts_blk_at (c : Dev nD) (t : Fin cfg0.N) (x : S4096x2048.Idx) :
    (iblk m c 1 t : Vec Ideal S4096x2048 .bf16) x = (m ((c : Thread nD τ).loc main_arg1) : S4096x2048.Idx → EReal) x := by
  obtain ⟨-, -, -, -, e0, e1, -⟩ := idx_facts t
  unfold iblk
  rw [View.read_apply]
  show (V m c main_v1 : S4096x2048.Idx → EReal) _ = _
  rw [V_wts]
  congr 1
  funext a
  apply Fin.ext
  match a with
  | ⟨0, _⟩ => show win0_1.index t 0 * 4096 + 1 * (x 0).val = (x 0).val; rw [e0]; omega
  | ⟨1, _⟩ => show win0_1.index t 1 * 2048 + 1 * (x 1).val = (x 1).val; rw [e1]; omega

/-- The linear bias block at any point, at channel `n`, is the bias at `n`. -/
theorem bl_blk_at (c : Dev nD) (t : Fin cfg0.N) (n : Fin 4096) :
    (iblk m c 2 t : Vec Ideal S1x4096 .f32) (ix2 (0 : Fin 1) n) = (m ((c : Thread nD τ).loc main_arg2) : S4096.Idx → EReal) (ix1 n) := by
  obtain ⟨-, -, -, -, -, -, e0, e1, -⟩ := idx_facts t
  unfold iblk
  rw [View.read_apply]
  show (V m c main_v2 : S1x4096.Idx → EReal) _ = _
  rw [V_bl]
  refine (congrArg _ ?_).trans (shapeCast_a_1a_apply _ shapeCasts_S4096_S1x4096 (0 : Fin 1) n)
  funext a
  apply Fin.ext
  match a with
  | ⟨0, _⟩ => show win0_2.index t 0 * 1 + 1 * 0 = 0; rw [e0]
  | ⟨1, _⟩ => show win0_2.index t 1 * 4096 + 1 * n.val = n.val; rw [e1]; omega

/-- The second bias block likewise. -/
theorem be_blk_at (c : Dev nD) (t : Fin cfg0.N) (n : Fin 4096) :
    (iblk m c 3 t : Vec Ideal S1x4096 .f32) (ix2 (0 : Fin 1) n) = (m ((c : Thread nD τ).loc main_arg3) : S4096.Idx → EReal) (ix1 n) := by
  obtain ⟨-, -, -, -, -, -, -, -, e0, e1, -⟩ := idx_facts t
  unfold iblk
  rw [View.read_apply]
  show (V m c main_v3 : S1x4096.Idx → EReal) _ = _
  rw [V_be]
  refine (congrArg _ ?_).trans (shapeCast_a_1a_apply _ shapeCasts_S4096_S1x4096 (0 : Fin 1) n)
  funext a
  apply Fin.ext
  match a with
  | ⟨0, _⟩ => show win0_3.index t 0 * 1 + 1 * 0 = 0; rw [e0]
  | ⟨1, _⟩ => show win0_3.index t 1 * 4096 + 1 * n.val = n.val; rw [e1]; omega

/-- The scale block likewise. -/
theorem gw_blk_at (c : Dev nD) (t : Fin cfg0.N) (n : Fin 4096) :
    (iblk m c 4 t : Vec Ideal S1x4096 .f32) (ix2 (0 : Fin 1) n) = (m ((c : Thread nD τ).loc main_arg4) : S4096.Idx → EReal) (ix1 n) := by
  obtain ⟨-, -, -, -, -, -, -, -, -, -, e0, e1, -⟩ := idx_facts t
  unfold iblk
  rw [View.read_apply]
  show (V m c main_v4 : S1x4096.Idx → EReal) _ = _
  rw [V_gw]
  refine (congrArg _ ?_).trans (shapeCast_a_1a_apply _ shapeCasts_S4096_S1x4096 (0 : Fin 1) n)
  funext a
  apply Fin.ext
  match a with
  | ⟨0, _⟩ => show win0_4.index t 0 * 1 + 1 * 0 = 0; rw [e0]
  | ⟨1, _⟩ => show win0_4.index t 1 * 4096 + 1 * n.val = n.val; rw [e1]; omega

/-- The shift block likewise. -/
theorem gb_blk_at (c : Dev nD) (t : Fin cfg0.N) (n : Fin 4096) :
    (iblk m c 5 t : Vec Ideal S1x4096 .f32) (ix2 (0 : Fin 1) n) = (m ((c : Thread nD τ).loc main_arg5) : S4096.Idx → EReal) (ix1 n) := by
  obtain ⟨-, -, -, -, -, -, -, -, -, -, -, -, e0, e1⟩ := idx_facts t
  unfold iblk
  rw [View.read_apply]
  show (V m c main_v5 : S1x4096.Idx → EReal) _ = _
  rw [V_gb]
  refine (congrArg _ ?_).trans (shapeCast_a_1a_apply _ shapeCasts_S4096_S1x4096 (0 : Fin 1) n)
  funext a
  apply Fin.ext
  match a with
  | ⟨0, _⟩ => show win0_5.index t 0 * 1 + 1 * 0 = 0; rw [e0]
  | ⟨1, _⟩ => show win0_5.index t 1 * 4096 + 1 * n.val = n.val; rw [e1]; omega

/-! ## What a point writes back -/

/-- If six loaded blocks agree with six arrays where the body reads them — the activation block's row `y₀` with the
    activations' row `i₀`, the parameters entry for entry — and the channel is the same, the body's value at `y` is
    `outArray` of the arrays at `i`. -/
theorem entry_eq (X0 : Vec Ideal S256x2048 .bf16) (X1 : Vec Ideal S4096x2048 .bf16) (X2 X3 X4 X5 : Vec Ideal S1x4096 .f32)
    (a0 : S8192x2048.Idx → EReal) (a1 : S4096x2048.Idx → EReal) (a2 a3 a4 a5 : S4096.Idx → EReal)
    (y : S256x4096.Idx) (i : S8192x4096.Idx)
    (h0 : ∀ k : Fin 2048, X0 (ix2 (y 0) k) = a0 (ix2 (i 0) k))
    (h1 : ∀ (n : Fin 4096) (k : Fin 2048), X1 (ix2 n k) = a1 (ix2 n k))
    (h2 : ∀ n : Fin 4096, X2 (ix2 (0 : Fin 1) n) = a2 (ix1 n))
    (h3 : ∀ n : Fin 4096, X3 (ix2 (0 : Fin 1) n) = a3 (ix1 n))
    (h4 : ∀ n : Fin 4096, X4 (ix2 (0 : Fin 1) n) = a4 (ix1 n))
    (h5 : ∀ n : Fin 4096, X5 (ix2 (0 : Fin 1) n) = a5 (ix1 n))
    (hq : (y 1 : Fin 4096) = i 1) :
    k0_pay1 (F := Ideal) X0 X1 X2 X3 X4 X5 y = outArray a0 a1 a2 a3 a4 a5 i := by
  obtain ⟨p, q, rfl⟩ : ∃ (p : Fin 256) (q : Fin 4096), y = ix2 p q := ⟨y 0, y 1, eq_ix2 y⟩
  have hq : q = i 1 := hq
  rw [pay_at]
  unfold outArray
  have e0 : brow X0 p = fun k => a0 (ix2 (i 0) k) := funext h0
  have e1 : bmat X1 = fun n k => a1 (ix2 n k) := funext fun n => funext fun k => h1 n k
  have e2 : bvec X2 = fun n => a2 (ix1 n) := funext h2
  have e3 : bvec X3 = fun n => a3 (ix1 n) := funext h3
  have e4 : bvec X4 = fun n => a4 (ix1 n) := funext h4
  have e5 : bvec X5 = fun n => a5 (ix1 n) := funext h5
  rw [e0, e1, e2, e3, e4, e5, hq]

/-- The result as a function of the launch contents of the six arguments. -/
abbrev result (c : Dev nD) : S8192x4096.Idx → EReal :=
  outArray (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- WHAT POINT `t` WRITES BACK is block `t` of `result`. -/
theorem flushed_eq (c : Dev nD) (t : Fin cfg0.N) :
    (dats m 0 c).flushed 6 t = ((cfg0.win 6).blk t).view.read (Elt Ideal) (result m c) := by
  rw [flushed6]
  unfold out0_6
  rw [View.canon_unit_zero hz]
  simp only [View.ld_unit_zero (S := S256x2048) hz, View.ld_unit_zero (S := S4096x2048) hz, View.ld_unit_zero (S := S1x4096) hz]
  obtain ⟨-, -, e0, e1, -⟩ := idx_facts t
  funext j
  show k0_pay1 (F := Ideal) (iblk m c 0 t) (iblk m c 1 t) (iblk m c 2 t) (iblk m c 3 t) (iblk m c 4 t) (iblk m c 5 t) j
    = result m c (((cfg0.win 6).blk t).view.emb j)
  refine entry_eq _ _ _ _ _ _ _ _ _ _ _ _ j _ (fun k => ?_) (fun n k => ?_) (fun n => ?_) (fun n => ?_) (fun n => ?_) (fun n => ?_) ?_
  · refine act_blk_at m c t _ _ ?_ rfl
    show win0_6.index t 0 * 256 + 1 * (j 0).val = t.val * 256 + (j 0).val
    rw [e0]; omega
  · exact wts_blk_at m c t _
  · exact bl_blk_at m c t n
  · exact be_blk_at m c t n
  · exact gw_blk_at m c t n
  · exact gb_blk_at m c t n
  · apply Fin.ext
    show (j 1).val = win0_6.index t 1 * 4096 + 1 * (j 1).val
    rw [e1]; omega

/-- An index of the result is in point `t`'s block iff each coordinate is in the block's range on its axis. -/
theorem mem_blk (t : Fin cfg0.N) (i : S8192x4096.Idx) :
    i ∈ ((cfg0.win 6).blk t).view.set ↔ ∀ a : Fin 2, win0_6.index t a * S256x4096.size a ≤ (i a).val ∧ (i a).val < win0_6.index t a * S256x4096.size a + S256x4096.size a := by
  show i ∈ ((View.whole main_v6).slice (win0_6.rect t)).set ↔ _
  rw [View.set_slice_whole, Rect.mem_set_unit]
  exact Iff.rfl

/-- The 32 blocks cover the result: row `r` is in block `r / 256`. -/
theorem cover (i : S8192x4096.Idx) : ∃ t : Fin cfg0.N, (cfg0.win 6).flush t = true ∧ i ∈ ((cfg0.win 6).blk t).view.set := by
  have hi0 : (i 0).val < 8192 := (i 0).isLt
  have hi1 : (i 1).val < 4096 := (i 1).isLt
  have hN : cfg0.N = 32 := N_0
  refine ⟨⟨(i 0).val / 256, by rw [hN]; omega⟩, flush0_6 _, ?_⟩
  obtain ⟨-, -, e0, e1, -⟩ := idx_facts ⟨(i 0).val / 256, by rw [hN]; omega⟩
  rw [mem_blk]
  intro a
  match a with
  | ⟨0, _⟩ =>
    show win0_6.index _ 0 * 256 ≤ (i 0).val ∧ (i 0).val < win0_6.index _ 0 * 256 + 256
    rw [e0]
    show (i 0).val / 256 * 256 ≤ (i 0).val ∧ (i 0).val < (i 0).val / 256 * 256 + 256
    omega
  | ⟨1, _⟩ =>
    show win0_6.index _ 1 * 4096 ≤ (i 1).val ∧ (i 1).val < win0_6.index _ 1 * 4096 + 4096
    rw [e1]
    omega

/-- THE ARRAY after the run is `result`. -/
theorem final (c : Dev nD) : (dats m 0 c).arrAt 6 cfg0.N = result m c :=
  (dats m 0 c).arrAt_eq_of_cover 6 (result m c) (fun t _ => flushed_eq m c t) cover

/-- The run, read: the result array at `result`, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.ArrayValue

end
-- ==== Proof.lean ====
/-
  The proof of `Cert.Claim` for the fused linear layer, Swish, second bias and group normalisation.

  Both idealized programs compute, for every row of the activations, the same function `rowOut` of that row and the
  five parameter arrays (Proof/Spec.lean).  The kernel does it 256 rows at a time over 32 grid points; entry by entry
  its body is `rowOut` of the row it sits in (Proof/KernRow.lean), and the 32 written blocks tile the result
  (Proof/KernArray.lean).  The reference does it in whole-array operations, read stage by stage at an index
  (Proof/RefRow.lean).  On the extended reals nothing separates the two: the product into a zero accumulator and the
  host's contraction are the same sum, the kernel's logistic is the reference's `1 / (1 + e^(-z))`, a lane sum and a
  host sum from zero are the same sum, both divide by the same word for 128 and add the same word for the constant,
  and the reciprocal square root is one function.  No law that could fail at an infinity is used, so the
  precondition is never opened.

  The three frames are the generated ones (the reference's is its generated run with the result dropped); the ideal
  pass rewrote nothing, so `preserves` is trivial.
-/
import proofs.«137462_j1580547967783_1_alg».proof.Defs
import proofs.«137462_j1580547967783_1_alg».proof.Proof.Gen.Kernel
import proofs.«137462_j1580547967783_1_alg».proof.Proof.Gen.Kernel.Skeleton
import proofs.«137462_j1580547967783_1_alg».proof.Proof.Gen.Kernel.Launch
import proofs.«137462_j1580547967783_1_alg».proof.Proof.Gen.Kernel.Points
import proofs.«137462_j1580547967783_1_alg».proof.Proof.Gen.Kernel.Frame
import proofs.«137462_j1580547967783_1_alg».proof.Proof.Gen.KernelIdeal
import proofs.«137462_j1580547967783_1_alg».proof.Proof.Gen.KernelIdeal.Skeleton
import proofs.«137462_j1580547967783_1_alg».proof.Proof.Gen.KernelIdeal.Launch
import proofs.«137462_j1580547967783_1_alg».proof.Proof.Gen.KernelIdeal.Points
import proofs.«137462_j1580547967783_1_alg».proof.Proof.Gen.KernelIdeal.Frame
import proofs.«137462_j1580547967783_1_alg».proof.Proof.Gen.ReferenceIdeal
import proofs.«137462_j1580547967783_1_alg».proof.Proof.Gen.Pre_finite_inputs
import proofs.«137462_j1580547967783_1_alg».proof.Proof.Gen.KernelIdeal.Value
import proofs.«137462_j1580547967783_1_alg».proof.Proof.Gen.ReferenceIdeal.Run
import proofs.«137462_j1580547967783_1_alg».proof.Proof.Gen.ReferenceIdeal.Read
import proofs.«137462_j1580547967783_1_alg».proof.Proof.Spec
import proofs.«137462_j1580547967783_1_alg».proof.Proof.RefRow
import proofs.«137462_j1580547967783_1_alg».proof.Proof.KernRow
import proofs.«137462_j1580547967783_1_alg».proof.Proof.KernArray
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the six arguments both programs end with the result array at `outArray` of them:
    the kernel by its 32 blocks, the reference by its stages read at an index. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, Cert.ReferenceIdeal.RowValue.out_eq]
  obtain ⟨a0, a1, a2, a3, a4, a5⟩ := hagree c
  rw [a0, a1, a2, a3, a4, a5]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
